-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2001 : Shape := ⟨2, ![512, 2001]⟩
abbrev S512 : Shape := ⟨1, ![512]⟩
abbrev S24x128 : Shape := ⟨2, ![24, 128]⟩
abbrev S_ : Shape := ⟨0, ![]⟩

class Facts : Prop where
  bcast_S_S512x2001 : S_.BroadcastsInDim S512x2001 (![] : Fin 0 → Fin S512x2001.rank)
  reducesTo_S512x2001_S_d0_1 : S512x2001.ReducesTo [0, 1] S_
  h_S_ : 0 < S_.numel
  bcast_S_S24x128 : S_.BroadcastsInDim S24x128 (![] : Fin 0 → Fin S24x128.rank)
  reducesTo_S24x128_S_d0_1 : S24x128.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S512x2001 .f32) (main_arg1 : IVec S512 32) (main_arg2 : FVec F S24x128 .f32) : IVec S_ 1 :=
  let main_v0 : FVec F S512x2001 .f32 := Host.absf main_arg0
  let main_cst : FVec F S_ .f32 := constant S_ .f32 0x7F800000#32
  let main_v1 : FVec F S512x2001 .f32 := broadcastInDim S512x2001 ![] bcast_S_S512x2001 main_cst
  let main_v2 : IVec S512x2001 1 := cmpf .olt main_v0 main_v1
  let main_c : IVec S_ 1 := constantI S_ 1 1#1
  let main_v3 : IVec S_ 1 := (fun x v => Host.reduce IntOp.andi x v reducesTo_S512x2001_S_d0_1 h_S_) main_v2 main_c
  let main_v4 : FVec F S24x128 .f32 := Host.absf main_arg2
  let main_cst_0 : FVec F S_ .f32 := constant S_ .f32 0x7F800000#32
  let main_v5 : FVec F S24x128 .f32 := broadcastInDim S24x128 ![] bcast_S_S24x128 main_cst_0
  let main_v6 : IVec S24x128 1 := cmpf .olt main_v4 main_v5
  let main_c_1 : IVec S_ 1 := constantI S_ 1 1#1
  let main_v7 : IVec S_ 1 := (fun x v => Host.reduce IntOp.andi x v reducesTo_S24x128_S_d0_1 h_S_) main_v6 main_c_1
  let main_v8 : IVec S_ 1 := andi main_v3 main_v7
  let main_c_2 : IVec S_ 32 := constantI S_ 32 1#32
  let main_v9 : IVec S512 32 := broadcastInDim S512 ![] bcast_S_S512 main_c_2
  let main_v10 : IVec S512 1 := cmpi .sge main_arg1 main_v9
  let main_c_3 : IVec S_ 32 := constantI S_ 32 24#32
  let main_v11 : IVec S512 32 := broadcastInDim S512 ![] bcast_S_S512 main_c_3
  let main_v12 : IVec S512 1 := cmpi .sle main_arg1 main_v11
  let main_v13 : IVec S512 1 := andi main_v10 main_v12
  let main_c_4 : IVec S_ 1 := constantI S_ 1 1#1
  let main_v14 : IVec S_ 1 := (fun x v => Host.reduce IntOp.andi x v reducesTo_S512_S_d0 h_S_) main_v13 main_c_4
  let main_v15 : IVec S_ 1 := andi main_v8 main_v14
  main_v15
-- ==== Kernel.lean ====
abbrev S512x2001 : Shape := ⟨2, ![512, 2001]⟩
abbrev S512 : Shape := ⟨1, ![512]⟩
abbrev S24x128 : Shape := ⟨2, ![24, 128]⟩
abbrev S512x1 : Shape := ⟨2, ![512, 1]⟩
abbrev S512x2001x128 : Shape := ⟨3, ![512, 2001, 128]⟩
abbrev S16x2001x128 : Shape := ⟨3, ![16, 2001, 128]⟩
abbrev S16x1 : Shape := ⟨2, ![16, 1]⟩
abbrev S16x24 : Shape := ⟨2, ![16, 24]⟩
abbrev S16x24x1 : Shape := ⟨3, ![16, 24, 1]⟩
abbrev S1x24x128 : Shape := ⟨3, ![1, 24, 128]⟩
abbrev S16x24x128 : Shape := ⟨3, ![16, 24, 128]⟩
abbrev S16x128 : Shape := ⟨2, ![16, 128]⟩
abbrev S1x128 : Shape := ⟨2, ![1, 128]⟩
abbrev S1x1x128 : Shape := ⟨3, ![1, 1, 128]⟩
abbrev S1x2001x128 : Shape := ⟨3, ![1, 2001, 128]⟩

abbrev nBuf : Space → Nat
  | .hbm => 5
  | .vmem => 4
  | .smem => 0
  | _ => 0

abbrev bufTy : (tb : Table) → Fin (tcTables nBuf tb) → BufTy
  | .hbm, ⟨0, _⟩ => ⟨S512x2001, .f32⟩
  | .hbm, ⟨1, _⟩ => ⟨S512, .i32⟩
  | .hbm, ⟨2, _⟩ => ⟨S24x128, .f32⟩
  | .hbm, ⟨3, _⟩ => ⟨S512x1, .i32⟩
  | .hbm, ⟨4, _⟩ => ⟨S512x2001x128, .f32⟩
  | .local _ .vmem, ⟨0, _⟩ => ⟨S512x1, .i32⟩
  | .local _ .vmem, ⟨1, _⟩ => ⟨S24x128, .f32⟩
  | .local _ .vmem, ⟨2, _⟩ => ⟨S16x2001x128, .f32⟩
  | .local _ .vmem, ⟨3, _⟩ => ⟨S16x2001x128, .f32⟩
  | _, _ => ⟨S512x2001, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c16_i32 : BitVec 32 := 16#32
  let v0 : BitVec 32 := Scalar.muli arg0 c16_i32
  v0
def k0_off1 (i : grid0.Coords) : Fin 2 → Nat :=
  let arg0 : BitVec 32 := BitVec.ofNat 32 (i 0).val
  let c16_i32 : BitVec 32 := 16#32
  let v0 : BitVec 32 := Scalar.muli arg0 c16_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S24x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x2001x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S512_S512x1 : S512.ShapeCasts S512x1
  h_S16x1 : 0 < S16x1.numel
  shapeCasts_S16x1_S16x1 : S16x1.ShapeCasts S16x1
  iota_S16x24_d1_w32 : S16x24.Iotas .tc 32 [1]
  broadcasts_S16x1_S16x24 : S16x1.Broadcasts S16x24
  natLt_1_32 : 1 < 32
  inb_S24x128_S24x128_0_0 : ∀ a, (![0, 0] : Fin 2 → Nat) a + S24x128.size a ≤ S24x128.size a
  h_S24x128 : 0 < S24x128.numel
  shapeCasts_S16x24_S16x24x1 : S16x24.ShapeCasts S16x24x1
  shapeCasts_S24x128_S1x24x128 : S24x128.ShapeCasts S1x24x128
  broadcasts_S16x24x1_S16x24x128 : S16x24x1.Broadcasts S16x24x128
  broadcasts_S1x24x128_S16x24x128 : S1x24x128.Broadcasts S16x24x128
  reduces_S16x24x128_S16x128 : S16x24x128.Reduces [1] S16x128
  slices_S16x128_o0_0_S1x128 : S16x128.Slices ![0, 0] S1x128
  shapeCasts_S1x128_S1x1x128 : S1x128.ShapeCasts S1x1x128
  shapeCasts_S1x1x128_S1x1x128 : S1x1x128.ShapeCasts S1x1x128
  broadcasts_S1x1x128_S1x2001x128 : S1x1x128.Broadcasts S1x2001x128
  inb_S16x2001x128_S1x2001x128_0_0_0 : ∀ a, (![0, 0, 0] : Fin 3 → Nat) a + S1x2001x128.size a ≤ S16x2001x128.size a
  h_S1x2001x128 : 0 < S1x2001x128.numel
  slices_S16x128_o1_0_S1x128 : S16x128.Slices ![1, 0] S1x128
  inb_S16x2001x128_S1x2001x128_1_0_0 : ∀ a, (![1, 0, 0] : Fin 3 → Nat) a + S1x2001x128.size a ≤ S16x2001x128.size a
  slices_S16x128_o2_0_S1x128 : S16x128.Slices ![2, 0] S1x128
  inb_S16x2001x128_S1x2001x128_2_0_0 : ∀ a, (![2, 0, 0] : Fin 3 → Nat) a + S1x2001x128.size a ≤ S16x2001x128.size a
  slices_S16x128_o3_0_S1x128 : S16x128.Slices ![3, 0] S1x128
  inb_S16x2001x128_S1x2001x128_3_0_0 : ∀ a, (![3, 0, 0] : Fin 3 → Nat) a + S1x2001x128.size a ≤ S16x2001x128.size a
  slices_S16x128_o4_0_S1x128 : S16x128.Slices ![4, 0] S1x128
  inb_S16x2001x128_S1x2001x128_4_0_0 : ∀ a, (![4, 0, 0] : Fin 3 → Nat) a + S1x2001x128.size a ≤ S16x2001x128.size a
  slices_S16x128_o5_0_S1x128 : S16x128.Slices ![5, 0] S1x128
  inb_S16x2001x128_S1x2001x128_5_0_0 : ∀ a, (![5, 0, 0] : Fin 3 → Nat) a + S1x2001x128.size a ≤ S16x2001x128.size a
  slices_S16x128_o6_0_S1x128 : S16x128.Slices ![6, 0] S1x128
  inb_S16x2001x128_S1x2001x128_6_0_0 : ∀ a, (![6, 0, 0] : Fin 3 → Nat) a + S1x2001x128.size a ≤ S16x2001x128.size a
  slices_S16x128_o7_0_S1x128 : S16x128.Slices ![7, 0] S1x128
  inb_S16x2001x128_S1x2001x128_7_0_0 : ∀ a, (![7, 0, 0] : Fin 3 → Nat) a + S1x2001x128.size a ≤ S16x2001x128.size a
  slices_S16x128_o8_0_S1x128 : S16x128.Slices ![8, 0] S1x128
  inb_S16x2001x128_S1x2001x128_8_0_0 : ∀ a, (![8, 0, 0] : Fin 3 → Nat) a + S1x2001x128.size a ≤ S16x2001x128.size a
  slices_S16x128_o9_0_S1x128 : S16x128.Slices ![9, 0] S1x128
  inb_S16x2001x128_S1x2001x128_9_0_0 : ∀ a, (![9, 0, 0] : Fin 3 → Nat) a + S1x2001x128.size a ≤ S16x2001x128.size a
  slices_S16x128_o10_0_S1x128 : S16x128.Slices ![10, 0] S1x128
  inb_S16x2001x128_S1x2001x128_10_0_0 : ∀ a, (![10, 0, 0] : Fin 3 → Nat) a + S1x2001x128.size a ≤ S16x2001x128.size a
  slices_S16x128_o11_0_S1x128 : S16x128.Slices ![11, 0] S1x128
  inb_S16x2001x128_S1x2001x128_11_0_0 : ∀ a, (![11, 0, 0] : Fin 3 → Nat) a + S1x2001x128.size a ≤ S16x2001x128.size a
  slices_S16x128_o12_0_S1x128 : S16x128.Slices ![12, 0] S1x128
  inb_S16x2001x128_S1x2001x128_12_0_0 : ∀ a, (![12, 0, 0] : Fin 3 → Nat) a + S1x2001x128.size a ≤ S16x2001x128.size a
  slices_S16x128_o13_0_S1x128 : S16x128.Slices ![13, 0] S1x128
  inb_S16x2001x128_S1x2001x128_13_0_0 : ∀ a, (![13, 0, 0] : Fin 3 → Nat) a + S1x2001x128.size a ≤ S16x2001x128.size a
  slices_S16x128_o14_0_S1x128 : S16x128.Slices ![14, 0] S1x128
  inb_S16x2001x128_S1x2001x128_14_0_0 : ∀ a, (![14, 0, 0] : Fin 3 → Nat) a + S1x2001x128.size a ≤ S16x2001x128.size a
  slices_S16x128_o15_0_S1x128 : S16x128.Slices ![15, 0] S1x128
  inb_S16x2001x128_S1x2001x128_15_0_0 : ∀ a, (![15, 0, 0] : Fin 3 → Nat) a + S1x2001x128.size a ≤ S16x2001x128.size a
  hrank0 : 0 < grid0.rank
  k0_mult1_dvd : ∀ i : grid0.Coords, 16 ∣ (k0_mult1 i).toNat
  k0_off1_inb : ∀ i : grid0.Coords, ∀ a, (k0_off1 i) a + S16x1.size a ≤ S512x1.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S512x1.size a
  hwx0_0 : ∀ i : grid0.Coords, EltTy.bits .i32 = 32 ∨ (Rect.block (s := S512x1) S512x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S24x128.size a ≤ S24x128.size a
  hwx0_1 : ∀ i : grid0.Coords, EltTy.bits .f32 = 32 ∨ (Rect.block (s := S24x128) S24x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x2001x128.size a ≤ S512x2001x128.size a
  hwx0_2 : ∀ i : grid0.Coords, EltTy.bits .f32 = 32 ∨ (Rect.block (s := S512x2001x128) S16x2001x128.size (cc0_transform_2 i) (hinb0_2 i)).WholeWords (EltTy.packing .f32)

variable [Facts₀]

abbrev win0_0 : Pipeline.Window sig grid0 :=
  Pipeline.Window.ofSpec (Memref.whole main_v0) S512x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S24x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x2001x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x2001 : Shape := ⟨2, ![512, 2001]⟩
abbrev S512 : Shape := ⟨1, ![512]⟩
abbrev S24x128 : Shape := ⟨2, ![24, 128]⟩
abbrev S_ : Shape := ⟨0, ![]⟩
abbrev S512x1 : Shape := ⟨2, ![512, 1]⟩
abbrev S512x128 : Shape := ⟨2, ![512, 128]⟩
abbrev S512x1x128 : Shape := ⟨3, ![512, 1, 128]⟩
abbrev S512x2001x128 : Shape := ⟨3, ![512, 2001, 128]⟩

abbrev nBuf : Space → Nat
  | .hbm => 17
  | .vmem => 0
  | .smem => 0
  | _ => 0

abbrev bufTy : (tb : Table) → Fin (tcTables nBuf tb) → BufTy
  | .hbm, ⟨0, _⟩ => ⟨S512x2001, .f32⟩
  | .hbm, ⟨1, _⟩ => ⟨S512, .i32⟩
  | .hbm, ⟨2, _⟩ => ⟨S24x128, .f32⟩
  | .hbm, ⟨3, _⟩ => ⟨S_, .i32⟩
  | .hbm, ⟨4, _⟩ => ⟨S512, .i32⟩
  | .hbm, ⟨5, _⟩ => ⟨S512, .i32⟩
  | .hbm, ⟨6, _⟩ => ⟨S_, .i32⟩
  | .hbm, ⟨7, _⟩ => ⟨S512, .i32⟩
  | .hbm, ⟨8, _⟩ => ⟨S512, .i1⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S512x1, .i32⟩
  | .hbm, ⟨14, _⟩ => ⟨S512x128, .f32⟩
  | .hbm, ⟨15, _⟩ => ⟨S512x1x128, .f32⟩
  | .hbm, ⟨16, _⟩ => ⟨S512x2001x128, .f32⟩
  | _, _ => ⟨S512x2001, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S512x1_0 : S512.BroadcastsInDim S512x1 (![0] : Fin 1 → Fin S512x1.rank)
  bcast_S512x128_S512x1x128_0_2 : S512x128.BroadcastsInDim S512x1x128 (![0, 2] : Fin 2 → Fin S512x1x128.rank)
  bcast_S512x1x128_S512x2001x128_0_1_2 : S512x1x128.BroadcastsInDim S512x2001x128 (![0, 1, 2] : Fin 3 → Fin S512x2001x128.rank)
  gather_S24x128_S512x1_S512x128_1_0_n_n_0_1_1128_wf : GatherDims.WF S24x128 S512x1 S512x128 [1] [0] [] [0] [] 1 ![1, 128]

variable [Facts₀]

def gather_S24x128_S512x1_S512x128_1_0_n_n_0_1_1128 : GatherDims S24x128 S512x1 S512x128 where
  offsetDims := [1]
  collapsedSliceDims := [0]
  operandBatchingDims := []
  startIndicesBatchingDims := []
  startIndexMap := [0]
  indexVectorDim := 1
  sliceSizes := ![1, 128]
  wf := gather_S24x128_S512x1_S512x128_1_0_n_n_0_1_1128_wf

class Facts : Prop extends Facts₀ where

variable [Facts]
-- ==== Proof.IdWords.lean ====
/-
  Word-level facts about a chromosome id `w` in its label range `1 ≤ w ≤ 24` (read signed).

  The kernel turns the id into a row number by `min 23 (max 0 (w − 1))`; the reference by the host's
  negative-index wrap `if w − 1 < 0 then w − 1 + 24 else w − 1` followed by the gather's clamp into `[0, 23]`.
  On the label range all three are the plain `w − 1`, a number in `[0, 23]`: there are only twenty-four such words,
  so each fact is checked on every one of them.
-/
import Idealize.ShloMosaic.PureOps
import Idealize.ShloMosaic.Lib.StableHlo.Predicate

namespace Cert.ChromRows

open Idealize.ShloMosaic

/-- The id is a label: between 1 and 24, read as a signed word. -/
def IsLabel (w : BitVec 32) : Prop := 1 ≤ w.toInt ∧ w.toInt ≤ 24

/-- The two compares the precondition makes, both true, say the id is a label. -/
theorem isLabel_of_cmp (w : BitVec 32) (h1 : IntOp.cmpi .sge w 1#32 = 1#1) (h2 : IntOp.cmpi .sle w 24#32 = 1#1) :
    IsLabel w := by
  unfold IntOp.cmpi at h1 h2
  rw [StableHlo.Predicate.ofBool_eq_one_iff] at h1 h2
  simp only [BitVec.sle, decide_eq_true_eq] at h1 h2
  exact ⟨by simpa using h1, by simpa using h2⟩

/-- A label is one of the twenty-four words `1, …, 24`. -/
theorem IsLabel.eq_ofNat {w : BitVec 32} (h : IsLabel w) : ∃ n : Fin 24, w = BitVec.ofNat 32 (n.val + 1) := by
  obtain ⟨h1, h2⟩ := h
  have hlt := w.isLt
  have hn : 1 ≤ w.toNat ∧ w.toNat ≤ 24 := by
    unfold BitVec.toInt at h1 h2
    split at h1 <;> omega
  refine ⟨⟨w.toNat - 1, by omega⟩, BitVec.eq_of_toNat_eq ?_⟩
  rw [BitVec.toNat_ofNat]
  show w.toNat = (w.toNat - 1 + 1) % 2 ^ 32
  omega

/-- The row of the embedding table an id selects: `w − 1` read signed, clamped into `[0, 23]` (the clamp is the
    identity on a label; it makes the row a total function of the word). -/
def row (w : BitVec 32) : Fin 24 := ⟨min (w - 1#32).toInt.toNat 23, by omega⟩

/-- The kernel's clamp of `w − 1` into `[0, 23]` leaves a label's `w − 1` alone. -/
theorem clamp_sub_one {w : BitVec 32} (h : IsLabel w) :
    IntOp.minsi 23#32 (IntOp.maxsi 0#32 (IntOp.subi w 1#32)) = w - 1#32 := by
  obtain ⟨n, rfl⟩ := h.eq_ofNat
  clear h; revert n; decide

/-- The host's wrap of a negative index does not fire on a label's `w − 1`. -/
theorem wrap_sub_one {w : BitVec 32} (h : IsLabel w) :
    Scalar.select (IntOp.cmpi .slt (IntOp.subi w 1#32) 0#32) (IntOp.addi (IntOp.subi w 1#32) 24#32) (IntOp.subi w 1#32)
      = w - 1#32 := by
  obtain ⟨n, rfl⟩ := h.eq_ofNat
  clear h; revert n; decide

/-- Column `k` of the kernel's one-hot row is set exactly at the id's row. -/
theorem ofNat_eq_sub_one_iff {w : BitVec 32} (h : IsLabel w) (k : Fin 24) :
    BitVec.ofNat 32 k.val = w - 1#32 ↔ k = row w := by
  obtain ⟨n, rfl⟩ := h.eq_ofNat
  clear h; revert k n; decide

end Cert.ChromRows
-- ==== Proof.PreLabels.lean ====
/-
  The precondition says every id is a label. Its last conjunct is `jnp.all((chr >= 1) & (chr <= 24))`: an `and`-reduce
  over all 512 positions of the two word compares. If the whole predicate is 1 then that reduce is 1, so both compares
  are 1 at every position, i.e. `1 ≤ chr[p] ≤ 24` signed.
-/
import Idealize.ShloMosaic.PureOps
import Idealize.ShloMosaic.Lib.ValueIdx
import Idealize.ShloMosaic.Lib.Affine
import Idealize.ShloMosaic.Lib.ReduceAll
import proofs.«403312_j37503654429066_3_alg».proof.Pre_finite_inputs
import proofs.«403312_j37503654429066_3_alg».proof.Proof.IdWords

namespace Cert.ChromRows

open Idealize.ShloMosaic Idealize.ShloMosaic.ValueIdx

instance : Subsingleton Cert.Pre_finite_inputs.S_.Idx := ⟨fun _ _ => funext fun d => d.elim0⟩

/-- From the predicate being all ones: every position of the id vector holds a label. -/
theorem labels_of_pre {F : FTy → Type} [FloatOps F] [Cert.Pre_finite_inputs.Facts]
    (a0 : FVec F Cert.Pre_finite_inputs.S512x2001 .f32) (a1 : IVec Cert.Pre_finite_inputs.S512 32)
    (a2 : FVec F Cert.Pre_finite_inputs.S24x128 .f32)
    (h : Cert.Pre_finite_inputs.fn (F := F) a0 a1 a2 = fun _ => 1#1) (p : Fin 512) : IsLabel (a1 (ix1 p)) := by
  have h0 := congrFun h ix0
  dsimp only [Cert.Pre_finite_inputs.fn] at h0
  -- the outer `and` of the finiteness part with the reduce over the id compares
  obtain ⟨-, hall⟩ := IntOp.andi_eq_one.1 h0
  -- the reduce is 1, so the two compares' `and` is 1 at position `p`
  have hp := Host.reduce_andi_all _ _ _ _ _ hall (ix1 p)
  obtain ⟨hge, hle⟩ := IntOp.andi_eq_one.1 hp
  exact isLabel_of_cmp _ hge hle

end Cert.ChromRows
-- ==== Proof.LibGatherRows.lean ====
/-
  A gather that takes whole ROWS of a rank-2 table (what `table[idx]` prints for an `[N, C]` table and a vector of `n`
  row numbers laid out as an `[n, 1]` column of start indices): offset axis 1, collapsed axis 0, start index map `[0]`, the
  index vector along axis 1 of the start indices, slices of one row.

  Read at result index `(p, q)` it is the table at `(r, q)`, where `r` is start index `p` read signed and clamped into
  `[0, N − 1]`: on the row axis the operand coordinate is the clamped start (no batching axis, and a collapsed axis has
  no offset); on the column axis there is no start, and the offset coordinate is the result's own column.
-/
import Idealize.ShloMosaic.PureOps
import Idealize.ShloMosaic.Lib.ValueIdx

namespace Idealize.ShloMosaic.GatherRows

open Idealize.ShloMosaic Idealize.ShloMosaic.ValueIdx

variable {α : Type}

/-- The dimension numbers of a row-take from an `[N, C]` table by an `[n, 1]` column of row numbers. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW-TAKE READ AT `(p, q)`: the table at row `idx[p, 0]` (signed, clamped into `[0, N − 1]`), column `q`. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 ⟨min (idx (ix2 p ⟨0, Nat.one_pos⟩)).toInt.toNat (N - 1), by omega⟩ q) := by
  unfold Host.gather
  congr 1
  funext a
  refine Fin.ext ?_
  show (rowDims N C n wf).start (ix2 p q) idx a + (rowDims N C n wf).batchCoord (ix2 p q) a
    + (rowDims N C n wf).offCoord (ix2 p q) a = _
  rw [GatherDims.batchCoord_eq_zero _ _ _ List.not_mem_nil, Nat.add_zero]
  match a with
  | ⟨0, _⟩ =>
    -- the row axis: collapsed, so no offset; its start is the clamped start index
    rw [GatherDims.offCoord_eq_zero _ _ _
      (fun h => ((GatherDims.mem_sKept _ _).mp h).1 (List.mem_singleton.mpr rfl)), Nat.add_zero]
    unfold GatherDims.start
    rw [dif_pos (show (⟨0, by decide⟩ : Fin 2) ∈ (rowDims N C n wf).startIndexMap from List.mem_singleton.mpr rfl)]
    have hsi : (rowDims N C n wf).siIdx (ix2 p q)
        ⟨List.idxOf (⟨0, by decide⟩ : Fin 2) (rowDims N C n wf).startIndexMap,
          List.idxOf_lt_length_iff.2 (List.mem_singleton.mpr rfl)⟩ = ix2 p ⟨0, Nat.one_pos⟩ := by
      funext b; refine Fin.ext ?_
      match b with
      | ⟨0, _⟩ => rfl
      | ⟨1, _⟩ => rfl
    rw [hsi]
    rfl
  | ⟨1, _⟩ =>
    -- the column axis: no start index names it; the offset is the result's own column
    have hs : (rowDims N C n wf).start (ix2 p q) idx (⟨1, Nat.one_lt_two⟩ : Fin 2) = 0 := by
      unfold GatherDims.start
      rw [dif_neg (fun h => by have := congrArg Fin.val (List.mem_singleton.mp h); simp at this)]
    rw [hs, Nat.zero_add]
    rfl

end Idealize.ShloMosaic.GatherRows
-- ==== Proof.EmbedSpec.lean ====
/-
  What both programs compute: every one of the 2001 bins of sample `p` holds row `chr[p] − 1` of the embedding table,

      out[p, b, d] = ce[chr[p] − 1, d],

  and the one law the kernel's side needs. The kernel never indexes the table: it multiplies each of the 24 rows by the
  0/1 indicator "this is the sample's row" and adds the products up. On the extended reals `0 · x = 0` and `1 · x = x`
  for EVERY `x` (infinite ones too), and a sum whose terms are zero but one is that one term, so the indicator sum is
  the selected row's entry with no finiteness needed.
-/
import Idealize.ShloMosaic.PureOps
import Idealize.ShloMosaic.Lib.ValueIdx
import proofs.«403312_j37503654429066_3_alg».proof.Proof.IdWords

noncomputable section

namespace Cert.ChromRows

open Idealize.ShloMosaic Idealize.ShloMosaic.ValueIdx

/-- The result array: bin `b` of sample `p` is the table's row for `chr[p]`. -/
def embedded (chr : IVec ⟨1, ![512]⟩ 32) (ce : FVec Ideal ⟨2, ![24, 128]⟩ .f32) : FVec Ideal ⟨3, ![512, 2001, 128]⟩ .f32 :=
  fun i => ce (ix2 (row (chr (ix1 (i 0)))) (i 2))

/-- The indicator of an equality of words, widened to 32 bits and converted to a float, is the real 1 or 0. -/
theorem sitofp_indicator (a b : BitVec 32) :
    Scalar.sitofp (F := Ideal) .f32 ((IntOp.cmpi .eq a b).setWidth 32) = if a = b then (1 : EReal) else 0 := by
  rw [Ideal.scalar_sitofp_def]
  unfold IntOp.cmpi
  by_cases h : a = b
  · subst h; simp
  · have : (a == b) = false := by simpa using h
    simp [this, h]

/-- Adding up the rows weighted by the indicator of row `j` gives row `j`'s entry. -/
theorem indicator_sum (j : Fin 24) (f : Fin 24 → EReal) :
    ∑ k : Fin 24, (if k = j then (1 : EReal) else 0) * f k = f j := by
  rw [Finset.sum_eq_single j]
  · rw [if_pos rfl, one_mul]
  · intro k _ hk; rw [if_neg hk, zero_mul]
  · intro h; exact absurd (Finset.mem_univ j) h

end Cert.ChromRows

end
-- ==== Proof.RefRows.lean ====
/-
  The reference, read at an index. Its result is two broadcasts of a row-take from the table: at `(p, b, d)` it is the
  gathered `[512, 128]` array at `(p, d)`, which is the table at the row the start index `p` names, column `d`. The start
  index is `chr[p] − 1` after the host's negative-index wrap; on a label the wrap does not fire and the gather's clamp is
  the identity, so the row is `chr[p] − 1`: the specification's row.
-/
import proofs.«403312_j37503654429066_3_alg».proof.Proof.Gen.ReferenceIdeal.Read
import proofs.«403312_j37503654429066_3_alg».proof.Proof.LibGatherRows
import proofs.«403312_j37503654429066_3_alg».proof.Proof.EmbedSpec

noncomputable section

namespace Cert.ReferenceIdeal.RefRows

open Cert.ReferenceIdeal Cert.ReferenceIdeal.Gen Cert.ReferenceIdeal.Read Cert.ChromRows
open Idealize.ShloMosaic Idealize.ShloMosaic.ValueIdx

/-- The program's gather is a row-take. -/
theorem gather_is_rowDims :
    gather_S24x128_S512x1_S512x128_1_0_n_n_0_1_1128
      = GatherRows.rowDims 24 128 512 Facts₀.gather_S24x128_S512x1_S512x128_1_0_n_n_0_1_1128_wf := rfl

/-- The start index of sample `p`: `chr[p] − 1`, the wrap of a negative index not firing on a label. -/
theorem start_index (chr : IVec S512 32) (p : Fin 512) (hl : IsLabel (chr (ix1 p))) :
    val_main_v7 (F := Ideal) chr (ix2 p ⟨0, Nat.one_pos⟩) = chr (ix1 p) - 1#32 := by
  have e : idx_main_v7 (ix2 p ⟨0, Nat.one_pos⟩) = ix1 p :=
    funext fun a => Fin.ext (by match a with | ⟨0, _⟩ => rfl)
  rw [val_main_v7_apply, e, val_main_v6_apply, val_main_v3_apply, val_main_v5_apply, val_main_v1_apply]
  exact wrap_sub_one hl

/-- The reference's result is the specification, when every id is a label. -/
theorem result_eq (chr : IVec S512 32) (ce : FVec Ideal S24x128 .f32) (hl : ∀ p : Fin 512, IsLabel (chr (ix1 p))) :
    val_main_v10 (F := Ideal) chr ce = embedded chr ce := by
  funext i
  obtain ⟨p, b, d, rfl⟩ : ∃ (p : Fin 512) (b : Fin 2001) (d : Fin 128), i = ix3 p b d := ⟨i 0, i 1, i 2, eq_ix3 i⟩
  have e : idx_main_v9 (idx_main_v10 (ix3 p b d)) = ix2 p d :=
    funext fun a => Fin.ext (by match a with | ⟨0, _⟩ => rfl | ⟨1, _⟩ => rfl)
  rw [val_main_v10_apply, val_main_v9_apply, e]
  unfold val_main_v8
  rw [gather_is_rowDims, GatherRows.gather_rows_apply (by decide)]
  -- both sides are the table at (some row, column d): the rows' numbers agree
  refine congrArg ce (congrArg (fun k : Fin 24 => ix2 k d) (Fin.ext ?_))
  show min (BitVec.toInt (val_main_v7 (F := Ideal) chr (ix2 p ⟨0, Nat.one_pos⟩))).toNat (24 - 1) = (row (chr (ix1 p))).val
  rw [start_index chr p (hl p)]
  rfl

end Cert.ReferenceIdeal.RefRows

end
-- ==== Proof.KernelRow.lean ====
/-
  The kernel body's arithmetic, read at an index, at the ideal values.

  From the 16 ids of its batch tile (a `[16, 1]` column) and the whole `[24, 128]` table the body forms the `[16, 128]` array

      emb[r, d] = Σ_k onehot[r, k] · ce[k, d],     onehot[r, k] = 1 if k = clamp(id[r] − 1, 0, 23) else 0,

  the one-hot written as a compare against an iota, widened and converted to a float. For a label id the clamp is the
  identity, the indicator is that of `k = id[r] − 1`, and the sum is `ce[id[r] − 1, d]` (EmbedSpec: no finiteness used).
  Each of the body's sixteen stores then writes, to row `r` of its output block, that row of `emb` repeated along the
  2001 bins: a slice of one row, two reshapes that only add a unit axis, and a broadcast along the bin axis.
-/
import proofs.«403312_j37503654429066_3_alg».proof.Proof.Gen.KernelIdeal.Skeleton
import proofs.«403312_j37503654429066_3_alg».proof.Proof.EmbedSpec
import Idealize.ShloMosaic.Lib.Pipeline.Value
import Idealize.ShloMosaic.Lib.ValueIdx
import Idealize.ShloMosaic.PureOps.Ideal.Laws

noncomputable section

namespace Cert.KernelIdeal.Rows

open Cert.KernelIdeal Cert.KernelIdeal.Gen Cert.ChromRows
open Idealize.ShloMosaic Idealize.ShloMosaic.ValueIdx

/-! ## The weighted sum -/

/-- The reduced axis put back: over result index `(r, d)`, coordinate `k` of the summed axis is `(r, k, d)`. -/
theorem lift_eq (r : Fin 16) (d : Fin 128) (k : Fin 24) :
    reduces_S16x24x128_S16x128.lift (ix2 r d) k = ix3 r k d := by
  funext a; refine Fin.ext ?_
  match a with
  | ⟨0, _⟩ => rfl
  | ⟨1, _⟩ => rfl
  | ⟨2, _⟩ => rfl

/-- The clamped row number of tile row `r`, broadcast along the 24 columns. -/
theorem clamped_apply (v3 : Vec Ideal S16x1 .i32) (r : Fin 16) (k : Fin 24) :
    broadcastTo S16x24 (minsi (broadcast S16x1 23#32) (maxsi (broadcast S16x1 0#32)
        (subi (shapeCast S16x1 v3 shapeCasts_S16x1_S16x1) (broadcast S16x1 1#32)))) broadcasts_S16x1_S16x24 (ix2 r k)
      = IntOp.minsi 23#32 (IntOp.maxsi 0#32 (IntOp.subi (v3 (ix2 r ⟨0, Nat.one_pos⟩)) 1#32)) := by
  refine (broadcastTo_apply _ broadcasts_S16x1_S16x24 (ix2 r k) (ix2 r ⟨0, Nat.one_pos⟩) (fun a => ?_)).trans ?_
  · match a with
    | ⟨0, _⟩ => show r.val = if (16 : Nat) = 1 then 0 else r.val; rw [if_neg (by decide)]
    | ⟨1, _⟩ => show 0 = if (1 : Nat) = 1 then 0 else k.val; rw [if_pos rfl]
  · rw [shapeCast_self]; rfl

/-- The one-hot entry `(r, k)` as a float, on the unit axis the body adds before the product. -/
theorem onehot_apply (v3 : Vec Ideal S16x1 .i32) (r : Fin 16) (k : Fin 24) (d : Fin 128)
    (hl : IsLabel (v3 (ix2 r ⟨0, Nat.one_pos⟩))) :
    broadcastTo S16x24x128 (shapeCast S16x24x1 (sitofp (F := Ideal) .f32 (extui 32 (cmpi .eq (iota .tc S16x24 32 [1] iota_S16x24_d1_w32)
        (broadcastTo S16x24 (minsi (broadcast S16x1 23#32) (maxsi (broadcast S16x1 0#32)
          (subi (shapeCast S16x1 v3 shapeCasts_S16x1_S16x1) (broadcast S16x1 1#32)))) broadcasts_S16x1_S16x24)) natLt_1_32))
        shapeCasts_S16x24_S16x24x1) broadcasts_S16x24x1_S16x24x128 (ix3 r k d)
      = if k = row (v3 (ix2 r ⟨0, Nat.one_pos⟩)) then (1 : EReal) else 0 := by
  refine (broadcastTo_apply _ broadcasts_S16x24x1_S16x24x128 (ix3 r k d) (ix3 r k ⟨0, Nat.one_pos⟩) (fun a => ?_)).trans ?_
  · match a with
    | ⟨0, _⟩ => show r.val = if (16 : Nat) = 1 then 0 else r.val; rw [if_neg (by decide)]
    | ⟨1, _⟩ => show k.val = if (24 : Nat) = 1 then 0 else k.val; rw [if_neg (by decide)]
    | ⟨2, _⟩ => show 0 = if (1 : Nat) = 1 then 0 else d.val; rw [if_pos rfl]
  refine (shapeCast_apply _ shapeCasts_S16x24_S16x24x1 (ix3 r k ⟨0, Nat.one_pos⟩) (ix2 r k) ?_).trans ?_
  · rw [Shape.rowMajor_val_two, Shape.rowMajor_val_three]
    show r.val * 24 + k.val = (r.val * 24 + k.val) * 1 + 0
    omega
  rw [sitofp_apply, extui_apply]
  show Scalar.sitofp (F := Ideal) .f32 ((IntOp.cmpi .eq (iota .tc S16x24 32 [1] iota_S16x24_d1_w32 (ix2 r k)) _).setWidth 32) = _
  rw [iota_single_apply, clamped_apply, clamp_sub_one hl, sitofp_indicator]
  exact if_congr (ofNat_eq_sub_one_iff hl k) rfl rfl

/-- The table on the unit axis the body adds before the product: entry `(r, k, d)` is `ce[k, d]`. -/
theorem table_apply (v16 : Vec Ideal S24x128 .f32) (r : Fin 16) (k : Fin 24) (d : Fin 128) :
    broadcastTo S16x24x128 (shapeCast S1x24x128 v16 shapeCasts_S24x128_S1x24x128) broadcasts_S1x24x128_S16x24x128 (ix3 r k d)
      = v16 (ix2 k d) := by
  refine (broadcastTo_apply _ broadcasts_S1x24x128_S16x24x128 (ix3 r k d) (ix3 ⟨0, Nat.one_pos⟩ k d) (fun a => ?_)).trans ?_
  · match a with
    | ⟨0, _⟩ => show 0 = if (1 : Nat) = 1 then 0 else r.val; rw [if_pos rfl]
    | ⟨1, _⟩ => show k.val = if (24 : Nat) = 1 then 0 else k.val; rw [if_neg (by decide)]
    | ⟨2, _⟩ => show d.val = if (128 : Nat) = 1 then 0 else d.val; rw [if_neg (by decide)]
  refine shapeCast_apply _ shapeCasts_S24x128_S1x24x128 (ix3 ⟨0, Nat.one_pos⟩ k d) (ix2 k d) ?_
  rw [Shape.rowMajor_val_two, Shape.rowMajor_val_three]
  show k.val * 128 + d.val = (0 * 24 + k.val) * 128 + d.val
  omega

/-- A product of a `[16, 24, 128]` array that is the indicator of column `j` along its middle axis (at row `r`, lane `d`) with one
    whose middle-axis entries there are `f k`, summed over the middle axis, is `f j`. -/
theorem sum_of_indicator (A B : FVec Ideal S16x24x128 .f32) (r : Fin 16) (d : Fin 128) (j : Fin 24) (f : Fin 24 → EReal)
    (hA : ∀ k : Fin 24, A (ix3 r k d) = if k = j then (1 : EReal) else 0) (hB : ∀ k : Fin 24, B (ix3 r k d) = f k) :
    ∑ k : Fin (S16x24x128.size 1), mulf A B (reduces_S16x24x128_S16x128.lift (ix2 r d) k) = f j := by
  show ∑ k : Fin 24, mulf A B (reduces_S16x24x128_S16x128.lift (ix2 r d) k) = f j
  refine Eq.trans (Finset.sum_congr rfl fun k _ => ?_) (indicator_sum j f)
  rw [lift_eq, mulf_apply, hA, hB]

/-- THE WEIGHTED SUM at row `r`, lane `d`: the table's row for the tile's `r`-th id, when that id is a label. -/
theorem emb_apply (v3 : Vec Ideal S16x1 .i32) (v16 : Vec Ideal S24x128 .f32) (r : Fin 16) (d : Fin 128)
    (hl : IsLabel (v3 (ix2 r ⟨0, Nat.one_pos⟩))) :
    k0_pay7 (F := Ideal) v3 v16 (ix2 r d) = v16 (ix2 (row (v3 (ix2 r ⟨0, Nat.one_pos⟩))) d) := by
  unfold k0_pay7
  refine (Ideal.multiReduction_add_single _ _ reduces_S16x24x128_S16x128 _ _ (ix2 r d)).trans ?_
  exact sum_of_indicator _ _ r d _ (fun k => v16 (ix2 k d)) (fun k => onehot_apply v3 r k d hl) (fun k => table_apply v16 r k d)

/-! ## One store's payload -/

/-- Row `r` of a `[16, 128]` array, sliced out, given two unit axes and repeated along the 2001 bins, reads at any bin the
    row's lane. -/
theorem slab_apply (o : Nat) (ho : o < 16) (hs : S16x128.Slices ![o, 0] S1x128) (v22 : FVec Ideal S16x128 .f32)
    (x : S1x2001x128.Idx) :
    broadcastTo S1x2001x128 (shapeCast S1x1x128 (shapeCast S1x1x128 (extractStridedSlice S1x128 ![o, 0] v22 hs)
        shapeCasts_S1x128_S1x1x128) shapeCasts_S1x1x128_S1x1x128) broadcasts_S1x1x128_S1x2001x128 x
      = v22 (ix2 ⟨o, ho⟩ (x 2)) := by
  obtain ⟨z, b, d, rfl⟩ : ∃ (z : Fin 1) (b : Fin 2001) (d : Fin 128), x = ix3 z b d := ⟨x 0, x 1, x 2, eq_ix3 x⟩
  refine (broadcastTo_apply _ broadcasts_S1x1x128_S1x2001x128 (ix3 z b d) (ix3 ⟨0, Nat.one_pos⟩ ⟨0, Nat.one_pos⟩ d) (fun a => ?_)).trans ?_
  · match a with
    | ⟨0, _⟩ => show 0 = if (1 : Nat) = 1 then 0 else z.val; rw [if_pos rfl]
    | ⟨1, _⟩ => show 0 = if (1 : Nat) = 1 then 0 else b.val; rw [if_pos rfl]
    | ⟨2, _⟩ => show d.val = if (128 : Nat) = 1 then 0 else d.val; rw [if_neg (by decide)]
  rw [shapeCast_self]
  refine (shapeCast_apply _ shapeCasts_S1x128_S1x1x128 (ix3 ⟨0, Nat.one_pos⟩ ⟨0, Nat.one_pos⟩ d) (ix2 ⟨0, Nat.one_pos⟩ d) ?_).trans ?_
  · rw [Shape.rowMajor_val_two, Shape.rowMajor_val_three]
    show 0 * 128 + d.val = (0 * 1 + 0) * 128 + d.val
    omega
  refine extractStridedSlice_apply _ v22 hs (ix2 ⟨0, Nat.one_pos⟩ d) (ix2 ⟨o, ho⟩ d) (fun a => ?_)
  match a with
  | ⟨0, _⟩ => show o = o + 0; omega
  | ⟨1, _⟩ => show d.val = 0 + d.val; omega

end Cert.KernelIdeal.Rows

end
-- ==== Proof.KernelTile.lean ====
/-
  What one grid point leaves in the output block. The body's sixteen stores fill rows 0 … 15 of the `[16, 2001, 128]`
  block, row `r` with row `r` of the weighted sum repeated along the bins. So all sixteen pieces are restrictions of ONE
  function of the block index, `(r, b, d) ↦ emb[r, d]`, and since they cover the block the block holds that function.
  The ids the sum is formed from are the 16 rows of the id column starting at row `16·i` (`i` the grid point).
-/
import proofs.«403312_j37503654429066_3_alg».proof.Proof.Gen.KernelIdeal.Frame
import proofs.«403312_j37503654429066_3_alg».proof.Proof.KernelRow

noncomputable section

namespace Cert.KernelIdeal.Rows

open Cert.KernelIdeal Cert.KernelIdeal.Gen Cert.ChromRows
open Idealize.ShloMosaic Idealize.ShloMosaic.ValueIdx Idealize.ShloMosaic.TcCoe Idealize.ShloMosaic.Tactic
open Idealize.SL Idealize.SL.Sem

/-- The block as one function of its index: row `r`, any bin, lane `d` is the weighted sum's `(r, d)`. -/
def tileRows (v3 : Vec Ideal S16x1 .i32) (v16 : Vec Ideal S24x128 .f32) : Vec Ideal S16x2001x128 .f32 :=
  fun y => k0_pay7 (F := Ideal) v3 v16 (ix2 (y 0) (y 2))

/-- A store of row `o`'s slab is the block function on the slab's rectangle. -/
theorem slab_is_tile (v3 : Vec Ideal S16x1 .i32) (v16 : Vec Ideal S24x128 .f32) (o : Nat) (ho : o < 16)
    (hs : S16x128.Slices ![o, 0] S1x128) (inb : ∀ a, (![o, 0, 0] : Fin 3 → Nat) a + S1x2001x128.size a ≤ S16x2001x128.size a)
    (x : S1x2001x128.Idx) :
    broadcastTo S1x2001x128 (shapeCast S1x1x128 (shapeCast S1x1x128 (extractStridedSlice S1x128 ![o, 0] (k0_pay7 (F := Ideal) v3 v16) hs)
        shapeCasts_S1x128_S1x1x128) shapeCasts_S1x1x128_S1x1x128) broadcasts_S1x1x128_S1x2001x128 x
      = tileRows v3 v16 ((Rect.unit (s := S16x2001x128) ![o, 0, 0] S1x2001x128.size inb).emb x) := by
  refine (slab_apply o ho hs _ x).trans ?_
  unfold tileRows
  refine congrArg (k0_pay7 (F := Ideal) v3 v16) ?_
  funext a; refine Fin.ext ?_
  match a with
  | ⟨0, _⟩ => show o = o + 1 * (x 0).val; have h1 : (x 0).val < 1 := (x 0).isLt; omega
  | ⟨1, _⟩ => show (x 2).val = 0 + 1 * (x 2).val; omega

theorem hz2 : (![0, 0] : Fin 2 → Nat) = fun _ => 0 := funext fun a => by fin_cases a <;> rfl

/-- WHAT THE BODY LEAVES in the output block at grid point `i`, from the id column `x0` and the table `x1`. -/
theorem out_eq (c : Dev nD) (i : grid0.Coords) (arg1 : Memref sig .tc .vmem S512x1 .i32) (harg1 : arg1.IsWhole)
    (arg2 : Memref sig .tc .vmem S24x128 .f32) (harg2 : arg2.IsWhole) (arg3 : Memref sig .tc .vmem S16x2001x128 .f32)
    (harg3 : arg3.IsWhole) (x0 : Vec Ideal S512x1 .i32) (x1 : Vec Ideal S24x128 .f32) :
    out0_A_2 (F := Ideal) c i arg1 harg1 arg2 harg2 arg3 harg3 x0 x1
      = tileRows (View.ld x0 (Rect.unit (s := S512x1) (k0_off1 i) S16x1.size (k0_off1_inb i))) x1 := by
  funext y
  unfold out0_A_2
  rw [View.read_writes_eq_canon _ _ _ (cover0_A_2 c i arg1 harg1 arg2 harg2 arg3 harg3 x0 x1)]
  refine View.canon_apply_of_pieces _ _ ?_ y (cover0_A_2 c i arg1 harg1 arg2 harg2 arg3 harg3 x0 x1 y)
  unfold kernelRun0_A
  dsimp only
  sl_unfold_words
  simp only [View.readAt_eq_ld, harg1.read_unread, harg2.read_unread, View.ld_unit_zero (S := S24x128) hz2]
  intro p hp
  simp only [List.mem_cons, List.not_mem_nil, or_false] at hp
  -- sixteen stores, rows 15 down to 0: each payload is the slab of its row
  rcases hp with rfl | rfl | rfl | rfl | rfl | rfl | rfl | rfl | rfl | rfl | rfl | rfl | rfl | rfl | rfl | rfl
  all_goals
    intro x
    exact slab_is_tile _ _ _ (by decide) (by decide) (by decide) x

end Cert.KernelIdeal.Rows

end
-- ==== Proof.KernelArray.lean ====
/-
  From blocks to the array. The grid has 32 points; point `t` writes back rows `16t … 16t + 15` of the `[512, 2001, 128]`
  result (all bins, all lanes), so the 32 blocks tile the array. The id column every point sees is the whole id vector
  reshaped to `[512, 1]`, and the table every point sees is the whole table; the body at point `t` reads ids
  `16t … 16t + 15`. Hence, when every id is a label, block `t` as written back is block `t` of the specification,
  and the array after the run is the specification.
-/
import proofs.«403312_j37503654429066_3_alg».proof.Proof.Gen.KernelIdeal.Value
import proofs.«403312_j37503654429066_3_alg».proof.Proof.KernelTile

noncomputable section

namespace Cert.KernelIdeal.Rows

open Cert.KernelIdeal Cert.KernelIdeal.Gen Cert.ChromRows
open Idealize.ShloMosaic Idealize.ShloMosaic.ValueIdx Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The id column and the table as the body finds them at point `t`, at their literal types. -/
abbrev idCol (c : Dev nD) (t : Fin cfg0.N) : Vec Ideal S512x1 .i32 := iblk m c 0 t
abbrev tbl (c : Dev nD) (t : Fin cfg0.N) : Vec Ideal S24x128 .f32 := iblk m c 1 t

/-- The printed index maps and the body's row offset, decided over the 32 points: the two inputs are whole arrays (block
    index 0), the output's block index is the point, the body reads its ids from row `16t`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ k0_off1 (grid0.coords t) (0 : Fin 2) = 16 * t.val ∧ k0_off1 (grid0.coords t) (1 : Fin 2) = 0 :=
  (by decide +kernel : ∀ t : Fin grid0.N, _)

/-- The region finds the id column as the id vector reshaped. -/
theorem V_ids (c : Dev nD) :
    (V m c main_v0 : S512x1.Idx → BitVec 32) = shapeCast S512x1 (m ((c : Thread nD τ).loc main_arg1)) shapeCasts_S512_S512x1 := by
  dsimp only [Gen.V, Gen.hostOps0]; after_results; rfl

/-- Row `p` of the id column is id `p`. -/
theorem idCol_apply (c : Dev nD) (t : Fin cfg0.N) (p : Fin 512) :
    idCol m c t (ix2 p ⟨0, Nat.one_pos⟩) = m ((c : Thread nD τ).loc main_arg1) (ix1 p) := by
  obtain ⟨e0, e1, -⟩ := idx_facts t
  show V m c main_v0 (((cfg0.win 0).blk t).view.emb (ix2 p ⟨0, Nat.one_pos⟩)) = _
  have h : ((cfg0.win 0).blk t).view.emb (ix2 p ⟨0, Nat.one_pos⟩) = ix2 p ⟨0, Nat.one_pos⟩ := by
    funext a; apply Fin.ext
    match a with
    | ⟨0, _⟩ => show win0_0.index t (0 : Fin 2) * 512 + 1 * p.val = p.val; omega
    | ⟨1, _⟩ => show win0_0.index t (1 : Fin 2) * 1 + 1 * 0 = 0; omega
  rw [h, V_ids]
  refine shapeCast_apply _ shapeCasts_S512_S512x1 (ix2 p ⟨0, Nat.one_pos⟩) (ix1 p) ?_
  rw [Shape.rowMajor_val_one, Shape.rowMajor_val_two]
  show p.val = p.val * 1 + 0
  omega

/-- The table block is the table argument. -/
theorem tbl_eq (c : Dev nD) (t : Fin cfg0.N) : tbl m c t = m ((c : Thread nD τ).loc main_arg2) := by
  obtain ⟨-, -, e0, e1, -⟩ := idx_facts t
  funext y
  show V m c main_arg2 (((cfg0.win 1).blk t).view.emb y) = _
  have h : ((cfg0.win 1).blk t).view.emb y = y := by
    funext a; apply Fin.ext
    match a with
    | ⟨0, _⟩ => show win0_1.index t (0 : Fin 2) * 24 + 1 * (y 0).val = (y 0).val; omega
    | ⟨1, _⟩ => show win0_1.index t (1 : Fin 2) * 128 + 1 * (y 1).val = (y 1).val; omega
  rw [h, V_main_arg2]

/-- WHAT POINT `t` WRITES BACK is block `t` of the specification, when every id is a label. -/
theorem flushed_eq (c : Dev nD) (t : Fin cfg0.N)
    (hl : ∀ p : Fin 512, IsLabel (m ((c : Thread nD τ).loc main_arg1) (ix1 p))) :
    (dats m 0 c).flushed 2 t = ((cfg0.win 2).blk t).view.read (Elt Ideal)
      (embedded (m ((c : Thread nD τ).loc main_arg1)) (m ((c : Thread nD τ).loc main_arg2))) := by
  rw [Value.flushed2_A]
  refine (congrArg ((cfg0.win 2).cut (grid0.coords t)) (out_eq c (grid0.coords t) (ms0_0 t) (hs0_0 t) (ms0_1 t) (hs0_1 t)
    (ms0_2 t) (hs0_2 t) (idCol m c t) (tbl m c t))).trans ?_
  obtain ⟨-, -, -, -, e0, e1, e2, o0, o1⟩ := idx_facts t
  funext y
  obtain ⟨r, b, d, rfl⟩ : ∃ (r : Fin 16) (b : Fin 2001) (d : Fin 128), y = ix3 r b d := ⟨y 0, y 1, y 2, eq_ix3 y⟩
  have ht : t.val < 32 := t.isLt
  -- the id the body's row r reads is id 16t + r
  have hid : View.ld (idCol m c t) (Rect.unit (s := S512x1) (k0_off1 (grid0.coords t)) S16x1.size (k0_off1_inb (grid0.coords t)))
      (ix2 r ⟨0, Nat.one_pos⟩) = m ((c : Thread nD τ).loc main_arg1) (ix1 ⟨16 * t.val + r.val, by omega⟩) := by
    rw [← idCol_apply m c t]
    show idCol m c t ((Rect.unit (s := S512x1) (k0_off1 (grid0.coords t)) S16x1.size (k0_off1_inb (grid0.coords t))).idx (ix2 r ⟨0, Nat.one_pos⟩)) = _
    refine congrArg (idCol m c t) (funext fun a => Fin.ext ?_)
    match a with
    | ⟨0, _⟩ => show k0_off1 (grid0.coords t) (0 : Fin 2) + 1 * r.val = 16 * t.val + r.val; omega
    | ⟨1, _⟩ => show k0_off1 (grid0.coords t) (1 : Fin 2) + 1 * 0 = 0; omega
  show tileRows _ (tbl m c t) (ix3 r b d) = embedded _ _ (((cfg0.win 2).blk t).view.emb (ix3 r b d))
  unfold tileRows embedded
  show k0_pay7 (F := Ideal) _ (tbl m c t) (ix2 r d) = _
  rw [emb_apply _ _ r d (by rw [hid]; exact hl _), hid, tbl_eq]
  refine congrArg (m ((c : Thread nD τ).loc main_arg2)) ?_
  have hrow : (((cfg0.win 2).blk t).view.emb (ix3 r b d)) 0 = (⟨16 * t.val + r.val, by omega⟩ : Fin 512) :=
    Fin.ext (by show win0_2.index t (0 : Fin 3) * 16 + 1 * r.val = 16 * t.val + r.val; omega)
  have hlane : (((cfg0.win 2).blk t).view.emb (ix3 r b d)) 2 = d :=
    Fin.ext (by show win0_2.index t (2 : Fin 3) * 128 + 1 * d.val = d.val; omega)
  rw [hrow, hlane]

/-- An index of the result is in point `t`'s block iff each coordinate is in the block's range on its axis. -/
theorem mem_blk (t : Fin cfg0.N) (i : S512x2001x128.Idx) :
    i ∈ ((cfg0.win 2).blk t).view.set ↔ ∀ a : Fin 3, win0_2.index t a * S16x2001x128.size a ≤ (i a).val
      ∧ (i a).val < win0_2.index t a * S16x2001x128.size a + S16x2001x128.size a := by
  show i ∈ ((View.whole main_v1).slice (win0_2.rect t)).set ↔ _
  rw [View.set_slice_whole, Rect.mem_set_unit]
  exact Iff.rfl

/-- The blocks tile the result: sample `p` is in the block of point `p / 16`. -/
theorem cover (i : S512x2001x128.Idx) :
    ∃ t : Fin cfg0.N, (cfg0.win 2).flush t = true ∧ i ∈ ((cfg0.win 2).blk t).view.set := by
  have hi0 : (i 0).val < 512 := (i 0).isLt
  have hi1 : (i 1).val < 2001 := (i 1).isLt
  have hi2 : (i 2).val < 128 := (i 2).isLt
  obtain ⟨-, -, -, -, e0, e1, e2, -⟩ := idx_facts ⟨(i 0).val / 16, by show (i 0).val / 16 < 32; omega⟩
  have e0' : win0_2.index ⟨(i 0).val / 16, by show (i 0).val / 16 < 32; omega⟩ (0 : Fin 3) = (i 0).val / 16 := e0
  refine ⟨⟨(i 0).val / 16, by show (i 0).val / 16 < 32; omega⟩, flush0_2 _, ?_⟩
  rw [mem_blk]
  intro a
  match a with
  | ⟨0, _⟩ => show win0_2.index _ (0 : Fin 3) * 16 ≤ (i 0).val ∧ (i 0).val < win0_2.index _ (0 : Fin 3) * 16 + 16; omega
  | ⟨1, _⟩ => show win0_2.index _ (1 : Fin 3) * 2001 ≤ (i 1).val ∧ (i 1).val < win0_2.index _ (1 : Fin 3) * 2001 + 2001; omega
  | ⟨2, _⟩ => show win0_2.index _ (2 : Fin 3) * 128 ≤ (i 2).val ∧ (i 2).val < win0_2.index _ (2 : Fin 3) * 128 + 128; omega

/-- THE RESULT ARRAY after the run is the specification, when every id is a label. -/
theorem final (c : Dev nD) (hl : ∀ p : Fin 512, IsLabel (m ((c : Thread nD τ).loc main_arg1) (ix1 p))) :
    (dats m 0 c).arrAt 2 cfg0.N
      = embedded (m ((c : Thread nD τ).loc main_arg1)) (m ((c : Thread nD τ).loc main_arg2)) :=
  (dats m 0 c).arrAt_eq_of_cover 2 _ (fun t _ => flushed_eq m c t hl) cover

/-- The kernel's run with the result array at the specification, the arguments unchanged. -/
theorem run (hl : ∀ (c : Dev nD) (p : Fin 512), IsLabel (m ((c : Thread nD τ).loc main_arg1) (ix1 p))) :
    θ_run defs (onTc (τ := τ) (main (F := Ideal))) ⟨m, fun _ => 0, ρ⟩ fun r => ∀ c : Dev nD,
      r.2.mem ((c : Thread nD τ).loc main_v1)
          = embedded (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hl c)), (h c).2⟩) (Value.run_blocks m ρ)

end Cert.KernelIdeal.Rows

end
-- ==== Proof.lean ====
/-
  A chromosome-embedding lookup: `out[p, b, d] = ce[chr[p] − 1, d]` for 512 samples, 2001 bins and a `[24, 128]` table.

  The kernel walks the samples sixteen at a time. For a tile it clamps `chr − 1` into `[0, 23]`, forms the one-hot rows of
  those numbers against an iota, multiplies them into the table and adds over the 24 rows — a selection done by
  arithmetic — and stores each selected row 2001 times. The reference takes the rows with an indexed gather, whose index is
  `chr − 1` with the host's wrap of negative values (+24) and the gather's clamp. The two treat an id below 1 differently
  (at `chr = 0` the wrap reads row 23, the clamp row 0), so the claim is stated on the ids' label range `1 ≤ chr ≤ 24`,
  where clamp, wrap and gather-clamp are all the identity on `chr − 1`.

  On that range both results are the specification (EmbedSpec): the reference by reading its broadcasts and its row-take
  at an index (RefRows, LibGatherRows), the kernel because a sum of the table's rows weighted by the indicator of one row
  is that row on the extended reals, with no finiteness needed (KernelRow), its sixteen stores fill the block with the
  tile's rows (KernelTile), and the 32 blocks tile the array (KernelArray). The label range is read off the precondition's
  two word compares (PreLabels, IdWords). The three frames are the generated ones (the reference's is its generated run),
  and the idealization's ledger is empty.
-/
import proofs.«403312_j37503654429066_3_alg».proof.Defs
import proofs.«403312_j37503654429066_3_alg».proof.Proof.Gen.Kernel
import proofs.«403312_j37503654429066_3_alg».proof.Proof.Gen.Kernel.Skeleton
import proofs.«403312_j37503654429066_3_alg».proof.Proof.Gen.Kernel.Launch
import proofs.«403312_j37503654429066_3_alg».proof.Proof.Gen.Kernel.Points
import proofs.«403312_j37503654429066_3_alg».proof.Proof.Gen.Kernel.Frame
import proofs.«403312_j37503654429066_3_alg».proof.Proof.Gen.KernelIdeal
import proofs.«403312_j37503654429066_3_alg».proof.Proof.Gen.KernelIdeal.Skeleton
import proofs.«403312_j37503654429066_3_alg».proof.Proof.Gen.KernelIdeal.Launch
import proofs.«403312_j37503654429066_3_alg».proof.Proof.Gen.KernelIdeal.Points
import proofs.«403312_j37503654429066_3_alg».proof.Proof.Gen.KernelIdeal.Frame
import proofs.«403312_j37503654429066_3_alg».proof.Proof.Gen.ReferenceIdeal
import proofs.«403312_j37503654429066_3_alg».proof.Proof.Gen.Pre_finite_inputs
import proofs.«403312_j37503654429066_3_alg».proof.Proof.Gen.KernelIdeal.Value
import proofs.«403312_j37503654429066_3_alg».proof.Proof.Gen.ReferenceIdeal.Run
import proofs.«403312_j37503654429066_3_alg».proof.Proof.Gen.ReferenceIdeal.Read
import proofs.«403312_j37503654429066_3_alg».proof.Proof.PreLabels
import proofs.«403312_j37503654429066_3_alg».proof.Proof.RefRows
import proofs.«403312_j37503654429066_3_alg».proof.Proof.KernelArray
import Idealize.ShloMosaic.Adequacy
import Idealize.ShloMosaic.Init

noncomputable section

namespace Cert.Proof

open Idealize.ShloMosaic Idealize.ShloMosaic.ValueIdx Idealize.SL.Sem Cert.ChromRows

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result array at the specification of the (agreeing) id vector and table: the
    precondition makes every id a label, and on labels each side is the specification. -/
theorem algebraic : Cert.algebraic_KernelIdeal_ReferenceIdeal := by
  intro m ρ m' ρ' hpre hagree
  have hl : ∀ (c : Dev Cert.KernelIdeal.nD) (p : Fin 512),
      IsLabel (m ((c.tc : Thread Cert.KernelIdeal.nD Cert.KernelIdeal.τ).loc Cert.KernelIdeal.main_arg1) (ix1 p)) :=
    fun c p => labels_of_pre _ _ _ (hpre c) p
  refine ⟨fun c => embedded (m ((c.tc : Thread Cert.KernelIdeal.nD Cert.KernelIdeal.τ).loc Cert.KernelIdeal.main_arg1))
    (m ((c.tc : Thread Cert.KernelIdeal.nD Cert.KernelIdeal.τ).loc Cert.KernelIdeal.main_arg2)),
    Cert.KernelIdeal.Rows.run m ρ hl, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v10_eq, (hagree c).2.1, (hagree c).2.2]
  exact Cert.ReferenceIdeal.RefRows.result_eq _ _ (hl c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
